-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 76
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RefChunks.lean ====
/-
  The reference's operations in three stretches, so that its run can be read one stretch at a time: the edge lists with
  their self loops and the symmetric normalisation (up to `main_v26`); the first layer, from the product `x · W1` to the
  maximum with zero (up to `main_v44`); the second layer, from `h · W2` to the log-softmax (up to `main_v62`). The
  buffer contents after the whole list are those after the three stretches in turn.
  (The three lists are the generated operation list of the run module, cut in two places.)
-/
import proofs.«164937_j88313117541056_1_alg».proof.Proof.RefRun

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- The edge lists with self loops, the degrees' inverse square roots, the per-edge normalisation. -/
abbrev opsA : List (HloOp τ sig (Elt F)) :=
  [
    nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)) ]

/-- The first layer: the product with `W1`, the gather, scaling and scatter over the edges, the bias, the maximum with zero. -/
abbrev opsB : List (HloOp τ sig (Elt F)) :=
  [
    binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf ]

/-- The second layer: the product with `W2`, the gather, scaling and scatter over the edges, the bias, the log-softmax. -/
abbrev opsC : List (HloOp τ sig (Elt F)) :=
  [
    binary main_v44 main_arg4 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v53 (broadcastInDim S1700000x1 ![0] bcast_S1700000_S1700000x1_0 : (⟨S1700000, .f32⟩ : BufTy).Contents (Elt F) → (⟨S1700000x1, .f32⟩ : BufTy).Contents (Elt F)),
    unary main_v53 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v52 main_v54 main_v55 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v61) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v61) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v62) subf ]

/-- The whole list is the three stretches in order. -/
theorem ops_split : (Cert.ReferenceIdeal.ValueP.ops : List (HloOp τ sig (Elt F))) = opsA ++ (opsB ++ opsC) := rfl

/-- The contents after a concatenation of two lists are those after the second from those after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op ops ih => rw [List.cons_append, after_cons, after_cons, ih]

/-- The contents after the whole list, by stretches. -/
theorem after_ops (V : Valuation τ sig (Elt F)) :
    after (Cert.ReferenceIdeal.ValueP.ops : List (HloOp τ sig (Elt F))) V = after opsC (after opsB (after opsA V)) := by
  rw [ops_split, after_append, after_append]

end Cert.ReferenceIdeal.Chunks

end
-- ==== Proof.RefPlain.lean ====
/-
  The reference's second and third stretches with the operations of the two outlined functions (the maximum with zero; the
  log-softmax) spelt with the plain builders at the buffers themselves, and that these are the same lists: a
  typed-reference operation is the plain operation at its buffer, the transports along the buffer's type being the
  identity.
  (The lists are the generated operation list of the run module, cut, the typed-reference spellings replaced.)
-/
import proofs.«164937_j88313117541056_1_alg».proof.Proof.RefChunks

set_option maxRecDepth 16384

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- The first layer's stretch, every operation by a plain builder. -/
abbrev opsB' : List (HloOp τ sig (Elt F)) :=
  [
    binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v3 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    nullary main_call0_cst ((constant S_ .f32 0x00000000#32) : (⟨S_, .f32⟩ : BufTy).Contents (Elt F)),
    unary main_call0_cst main_call0_v0 ((broadcastInDim S100000x128 ![] bcast_S_S100000x128) : (⟨S_, .f32⟩ : BufTy).Contents (Elt F) → (⟨S100000x128, .f32⟩ : BufTy).Contents (Elt F)),
    binary main_v43 main_call0_v0 main_v44 (maximumf : (⟨S100000x128, .f32⟩ : BufTy).Contents (Elt F) → (⟨S100000x128, .f32⟩ : BufTy).Contents (Elt F) → (⟨S100000x128, .f32⟩ : BufTy).Contents (Elt F)) ]

/-- The second layer's stretch, every operation by a plain builder. -/
abbrev opsC' : List (HloOp τ sig (Elt F)) :=
  [
    binary main_v44 main_arg4 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v46 (broadcastInDim S1700000 ![] bcast_S_S1700000 : (⟨S_, .i32⟩ : BufTy).Contents (Elt F) → (⟨S1700000, .i32⟩ : BufTy).Contents (Elt F)),
    binary main_v3 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v45 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v26 main_v53 (broadcastInDim S1700000x1 ![0] bcast_S1700000_S1700000x1_0 : (⟨S1700000, .f32⟩ : BufTy).Contents (Elt F) → (⟨S1700000x1, .f32⟩ : BufTy).Contents (Elt F)),
    unary main_v53 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v52 main_v54 main_v55 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0xFF800000#32) : (⟨S_, .f32⟩ : BufTy).Contents (Elt F)),
    binary main_v61 main_call1_cst main_call1_v0 ((fun x v => Host.reduce FloatOps.maximumf x v reducesTo_S100000x64_S100000_d1 h_S_) : (⟨S100000x64, .f32⟩ : BufTy).Contents (Elt F) → (⟨S_, .f32⟩ : BufTy).Contents (Elt F) → (⟨S100000, .f32⟩ : BufTy).Contents (Elt F)),
    nullary main_call1_cst_0 ((constant S_ .f32 0xFF800000#32) : (⟨S_, .f32⟩ : BufTy).Contents (Elt F)),
    unary main_call1_cst_0 main_call1_v1 ((broadcastInDim S100000 ![] bcast_S_S100000) : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 ((broadcastInDim S100000x1 ![0] bcast_S100000_S100000x1_0) : (⟨S100000, .f32⟩ : BufTy).Contents (Elt F) → (⟨S100000x1, .f32⟩ : BufTy).Contents (Elt F)),
    unary main_call1_v3 main_call1_v4 ((broadcastInDim S100000x64 ![0, 1] bcast_S100000x1_S100000x64_0_1) : (⟨S100000x1, .f32⟩ : BufTy).Contents (Elt F) → (⟨S100000x64, .f32⟩ : BufTy).Contents (Elt F)),
    binary main_v61 main_call1_v4 main_call1_v5 (subf : (⟨S100000x64, .f32⟩ : BufTy).Contents (Elt F) → (⟨S100000x64, .f32⟩ : BufTy).Contents (Elt F) → (⟨S100000x64, .f32⟩ : BufTy).Contents (Elt F)),
    unary main_call1_v5 main_call1_v6 (Host.exp : (⟨S100000x64, .f32⟩ : BufTy).Contents (Elt F) → (⟨S100000x64, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call1_v7 main_call1_v8 ((broadcastInDim S100000x1 ![0] bcast_S100000_S100000x1_0) : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 ((broadcastInDim S100000x64 ![0, 1] bcast_S100000x1_S100000x64_0_1) : (⟨S100000x1, .f32⟩ : BufTy).Contents (Elt F) → (⟨S100000x64, .f32⟩ : BufTy).Contents (Elt F)),
    binary main_call1_v5 main_call1_v10 main_v62 (subf : (⟨S100000x64, .f32⟩ : BufTy).Contents (Elt F) → (⟨S100000x64, .f32⟩ : BufTy).Contents (Elt F) → (⟨S100000x64, .f32⟩ : BufTy).Contents (Elt F)) ]

theorem opsB_eq : (opsB : List (HloOp τ sig (Elt F))) = opsB' := rfl

section
-- the host's reduce is kept folded while the two spellings of an operation are compared
attribute [local irreducible] Host.reduce

theorem opsC_eq : (opsC : List (HloOp τ sig (Elt F))) = opsC' := by
  unfold opsC opsC'
  repeat (first | (refine congrArg₂ List.cons rfl ?_) | rfl)

end

/-- The contents after the whole list, by the stretches in their plain spelling. -/
theorem after_ops' (V : Valuation τ sig (Elt F)) :
    after (Cert.ReferenceIdeal.ValueP.ops : List (HloOp τ sig (Elt F))) V = after opsC' (after opsB' (after opsA V)) := by
  rw [after_ops, opsB_eq, opsC_eq]

end Cert.ReferenceIdeal.Chunks

end
-- ==== Proof.BridgeA.lean ====
/-
  The two programs' first host stretches agree. Both build, from the edge list alone, the source and target lists with
  the self loops appended and the per-edge normalisation (the product of the two endpoints' inverse square-root
  degrees); read back operation by operation the two stretches are the same operations of the same argument, so the
  kernel's buffers `main_v3`, `main_v6` and `main_v27` hold what the reference's `main_v3`, `main_v6` and the column
  form of its `main_v26` hold. Neither stretch writes an argument.
-/
import proofs.«164937_j88313117541056_1_alg».proof.Proof.Gen.KernelIdeal.Frame
import proofs.«164937_j88313117541056_1_alg».proof.Proof.RefChunks
import Idealize.ShloMosaic.PureOps.Ideal

set_option maxRecDepth 16384

noncomputable section

namespace Cert.Bridge

open Cert.KernelIdeal Cert.KernelIdeal.Gen Cert.ReferenceIdeal.Chunks
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-- The reference's buffer contents after its first stretch. -/
def VA : Valuation Cert.ReferenceIdeal.τ Cert.ReferenceIdeal.sig (Elt Ideal) := after (opsA (F := Ideal)) (launchContents m' c)

set_option maxHeartbeats 8000000 in
/-- The source list with self loops: the same operations of the edge list in both programs. -/
theorem src_eq (h1 : m' ((c.tc : Thread Cert.ReferenceIdeal.nD Cert.ReferenceIdeal.τ).loc Cert.ReferenceIdeal.main_arg1) = m ((c.tc : Thread nD τ).loc main_arg1)) :
    W1 m ρ c (Proc.devRef .tc main_v3) = VA m' c (Proc.devRef .tc Cert.ReferenceIdeal.main_v3) := by
  have e : launchContents m' c (Proc.devRef .tc Cert.ReferenceIdeal.main_arg1) = W0 m ρ c (Proc.devRef .tc main_arg1) := h1
  show after (hostOps0 (F := Ideal)) (W0 m ρ c) (Proc.devRef .tc main_v3) = after (opsA (F := Ideal)) (launchContents m' c) (Proc.devRef .tc Cert.ReferenceIdeal.main_v3)
  simp only [hostOps0, opsA]
  after_results
  rw [e]
  rfl

set_option maxHeartbeats 8000000 in
/-- The target list with self loops. -/
theorem dst_eq (h1 : m' ((c.tc : Thread Cert.ReferenceIdeal.nD Cert.ReferenceIdeal.τ).loc Cert.ReferenceIdeal.main_arg1) = m ((c.tc : Thread nD τ).loc main_arg1)) :
    W1 m ρ c (Proc.devRef .tc main_v6) = VA m' c (Proc.devRef .tc Cert.ReferenceIdeal.main_v6) := by
  have e : launchContents m' c (Proc.devRef .tc Cert.ReferenceIdeal.main_arg1) = W0 m ρ c (Proc.devRef .tc main_arg1) := h1
  show after (hostOps0 (F := Ideal)) (W0 m ρ c) (Proc.devRef .tc main_v6) = after (opsA (F := Ideal)) (launchContents m' c) (Proc.devRef .tc Cert.ReferenceIdeal.main_v6)
  simp only [hostOps0, opsA]
  after_results
  rw [e]
  rfl

set_option maxHeartbeats 8000000 in
/-- The per-edge normalisation, which the kernel's program keeps as a column. -/
theorem nrm_eq (h1 : m' ((c.tc : Thread Cert.ReferenceIdeal.nD Cert.ReferenceIdeal.τ).loc Cert.ReferenceIdeal.main_arg1) = m ((c.tc : Thread nD τ).loc main_arg1)) :
    W1 m ρ c (Proc.devRef .tc main_v27)
      = broadcastInDim Cert.ReferenceIdeal.S1700000x1 ![0] Cert.ReferenceIdeal.Gen.bcast_S1700000_S1700000x1_0 (VA m' c (Proc.devRef .tc Cert.ReferenceIdeal.main_v26)) := by
  have e : launchContents m' c (Proc.devRef .tc Cert.ReferenceIdeal.main_arg1) = W0 m ρ c (Proc.devRef .tc main_arg1) := h1
  show after (hostOps0 (F := Ideal)) (W0 m ρ c) (Proc.devRef .tc main_v27) = broadcastInDim Cert.ReferenceIdeal.S1700000x1 ![0] Cert.ReferenceIdeal.Gen.bcast_S1700000_S1700000x1_0 (after (opsA (F := Ideal)) (launchContents m' c) (Proc.devRef .tc Cert.ReferenceIdeal.main_v26))
  simp only [hostOps0, opsA]
  after_results
  rw [e]
  rfl

/-- The kernel's first stretch does not write argument 0. -/
theorem W1_arg0 : W1 m ρ c (Proc.devRef .tc main_arg0) = m ((c.tc : Thread nD τ).loc main_arg0) := by
  show after (hostOps0 (F := Ideal)) (W0 m ρ c) (Proc.devRef .tc main_arg0) = W0 m ρ c (Proc.devRef .tc main_arg0)
  simp only [hostOps0]
  after_results

/-- The reference's first stretch does not write argument 0. -/
theorem VA_arg0 : VA m' c (Proc.devRef .tc Cert.ReferenceIdeal.main_arg0) = m' ((c.tc : Thread Cert.ReferenceIdeal.nD Cert.ReferenceIdeal.τ).loc Cert.ReferenceIdeal.main_arg0) := by
  show after (opsA (F := Ideal)) (launchContents m' c) (Proc.devRef .tc Cert.ReferenceIdeal.main_arg0) = launchContents m' c (Proc.devRef .tc Cert.ReferenceIdeal.main_arg0)
  simp only [opsA]
  after_results

/-- The kernel's first stretch does not write argument 2. -/
theorem W1_arg2 : W1 m ρ c (Proc.devRef .tc main_arg2) = m ((c.tc : Thread nD τ).loc main_arg2) := by
  show after (hostOps0 (F := Ideal)) (W0 m ρ c) (Proc.devRef .tc main_arg2) = W0 m ρ c (Proc.devRef .tc main_arg2)
  simp only [hostOps0]
  after_results

/-- The reference's first stretch does not write argument 2. -/
theorem VA_arg2 : VA m' c (Proc.devRef .tc Cert.ReferenceIdeal.main_arg2) = m' ((c.tc : Thread Cert.ReferenceIdeal.nD Cert.ReferenceIdeal.τ).loc Cert.ReferenceIdeal.main_arg2) := by
  show after (opsA (F := Ideal)) (launchContents m' c) (Proc.devRef .tc Cert.ReferenceIdeal.main_arg2) = launchContents m' c (Proc.devRef .tc Cert.ReferenceIdeal.main_arg2)
  simp only [opsA]
  after_results

/-- The kernel's first stretch does not write argument 3. -/
theorem W1_arg3 : W1 m ρ c (Proc.devRef .tc main_arg3) = m ((c.tc : Thread nD τ).loc main_arg3) := by
  show after (hostOps0 (F := Ideal)) (W0 m ρ c) (Proc.devRef .tc main_arg3) = W0 m ρ c (Proc.devRef .tc main_arg3)
  simp only [hostOps0]
  after_results

/-- The reference's first stretch does not write argument 3. -/
theorem VA_arg3 : VA m' c (Proc.devRef .tc Cert.ReferenceIdeal.main_arg3) = m' ((c.tc : Thread Cert.ReferenceIdeal.nD Cert.ReferenceIdeal.τ).loc Cert.ReferenceIdeal.main_arg3) := by
  show after (opsA (F := Ideal)) (launchContents m' c) (Proc.devRef .tc Cert.ReferenceIdeal.main_arg3) = launchContents m' c (Proc.devRef .tc Cert.ReferenceIdeal.main_arg3)
  simp only [opsA]
  after_results

/-- The kernel's first stretch does not write argument 4. -/
theorem W1_arg4 : W1 m ρ c (Proc.devRef .tc main_arg4) = m ((c.tc : Thread nD τ).loc main_arg4) := by
  show after (hostOps0 (F := Ideal)) (W0 m ρ c) (Proc.devRef .tc main_arg4) = W0 m ρ c (Proc.devRef .tc main_arg4)
  simp only [hostOps0]
  after_results

/-- The reference's first stretch does not write argument 4. -/
theorem VA_arg4 : VA m' c (Proc.devRef .tc Cert.ReferenceIdeal.main_arg4) = m' ((c.tc : Thread Cert.ReferenceIdeal.nD Cert.ReferenceIdeal.τ).loc Cert.ReferenceIdeal.main_arg4) := by
  show after (opsA (F := Ideal)) (launchContents m' c) (Proc.devRef .tc Cert.ReferenceIdeal.main_arg4) = launchContents m' c (Proc.devRef .tc Cert.ReferenceIdeal.main_arg4)
  simp only [opsA]
  after_results

/-- The kernel's first stretch does not write argument 5. -/
theorem W1_arg5 : W1 m ρ c (Proc.devRef .tc main_arg5) = m ((c.tc : Thread nD τ).loc main_arg5) := by
  show after (hostOps0 (F := Ideal)) (W0 m ρ c) (Proc.devRef .tc main_arg5) = W0 m ρ c (Proc.devRef .tc main_arg5)
  simp only [hostOps0]
  after_results

/-- The reference's first stretch does not write argument 5. -/
theorem VA_arg5 : VA m' c (Proc.devRef .tc Cert.ReferenceIdeal.main_arg5) = m' ((c.tc : Thread Cert.ReferenceIdeal.nD Cert.ReferenceIdeal.τ).loc Cert.ReferenceIdeal.main_arg5) := by
  show after (opsA (F := Ideal)) (launchContents m' c) (Proc.devRef .tc Cert.ReferenceIdeal.main_arg5) = launchContents m' c (Proc.devRef .tc Cert.ReferenceIdeal.main_arg5)
  simp only [opsA]
  after_results

end Cert.Bridge

end
-- ==== Proof.Spec.lean ====
/-
  What the four kernel calls compute, as functions of whole arrays over the extended reals, entry by entry:
  the matrix product (the sum over the contracted coordinate of the products of the entries), a one-row bias
  added to every row followed by the maximum with zero, and a one-row bias added to every row followed by the
  row-wise log-softmax (the row's maximum from -∞ is taken off, then the logarithm of the row's sum of
  exponentials of the differences is taken off).
-/
import Idealize.ShloMosaic.Lib.ValueIdx
import Idealize.ShloMosaic.PureOps.Ideal.Laws

noncomputable section

namespace Cert.Spec

open Idealize.ShloMosaic Idealize.ShloMosaic.ValueIdx

variable {M K N : Nat}

/-- Entry `(p, q)` of the product: the sum over `k` of `x (p, k) * w (k, q)`. -/
def matProd (x : FVec Ideal ⟨2, ![M, K]⟩ .f32) (w : FVec Ideal ⟨2, ![K, N]⟩ .f32) : FVec Ideal ⟨2, ![M, N]⟩ .f32 :=
  fun i => (∑ k : Fin K, x (ix2 (i 0) k) * w (ix2 k (i 1)) : EReal)

/-- The one-row bias added to every row. -/
def biased (a : FVec Ideal ⟨2, ![M, N]⟩ .f32) (b : FVec Ideal ⟨2, ![1, N]⟩ .f32) : FVec Ideal ⟨2, ![M, N]⟩ .f32 :=
  fun i => (a i + b (ix2 0 (i 1)) : EReal)

/-- The bias added, then the maximum with zero. -/
def biasRelu (a : FVec Ideal ⟨2, ![M, N]⟩ .f32) (b : FVec Ideal ⟨2, ![1, N]⟩ .f32) : FVec Ideal ⟨2, ![M, N]⟩ .f32 :=
  fun i => (max (biased a b i) 0 : EReal)

/-- Row `p`'s maximum, folded from -∞ over the row's entries. -/
def rowMax (y : FVec Ideal ⟨2, ![M, N]⟩ .f32) (p : Fin M) : EReal :=
  (Finset.univ : Finset (Fin N)).fold max (⊥ : EReal) fun k => y (ix2 p k)

/-- Every entry less its row's maximum. -/
def shifted (y : FVec Ideal ⟨2, ![M, N]⟩ .f32) : FVec Ideal ⟨2, ![M, N]⟩ .f32 :=
  fun i => (y i - rowMax y (i 0) : EReal)

/-- The row-wise log-softmax: the shifted entry less the logarithm of its row's sum of exponentials of shifted entries. -/
def logSoftmax (y : FVec Ideal ⟨2, ![M, N]⟩ .f32) : FVec Ideal ⟨2, ![M, N]⟩ .f32 :=
  fun i => (shifted y i - Ideal.log (∑ k : Fin N, Ideal.exp (shifted y (ix2 (i 0) k))) : EReal)

/-- The bias added, then the row-wise log-softmax. -/
def biasLogSoftmax (a : FVec Ideal ⟨2, ![M, N]⟩ .f32) (b : FVec Ideal ⟨2, ![1, N]⟩ .f32) : FVec Ideal ⟨2, ![M, N]⟩ .f32 :=
  logSoftmax (biased a b)

/-- The word `0xFF800000` is -∞. -/
theorem ofBits_neg_inf : Ideal.ofBits .f32 0xFF800000#32 = (⊥ : EReal) := by
  simp [Ideal.ofBits, Ideal.ieee]

/-- The maximum with -∞ is the other argument. -/
theorem max_neg_inf (y : EReal) : max (Ideal.ofBits .f32 0xFF800000#32) y = y := by
  rw [ofBits_neg_inf]; exact max_eq_right bot_le

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Region0.lean ====
/-
  The first kernel call: the features times the first layer's weights. Point `t` of the 20-point grid stages rows
  `5000 t … 5000 t + 4999` of the features and the weights whole, and writes back the same rows of the result; what
  it writes at `(p, q)` is the sum over `k` of `x (5000 t + p, k) * w (k, q)` (the conversions to the narrower
  format are the identity over the extended reals, and the accumulator starts at zero), so the written blocks tile
  the array with `Spec.matProd x w`.
-/
import proofs.«164937_j88313117541056_1_alg».proof.Proof.Gen.KernelIdeal.Frame
import proofs.«164937_j88313117541056_1_alg».proof.Proof.Spec
import proofs.«164937_j88313117541056_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones of a `5000×128` by `128×128` product. -/
theorem dims_eq : dot_S5000x128_S128x128_S5000x128_1_0_0_1_n_n = DotDims.plain 5000 128 128 := rfl

/-- The body's value at `(p, q)`: the sum over `k` of the loaded block's `(p, k)` times the weights' `(k, q)`. -/
theorem pay_apply (x0 : Vec Ideal S5000x128 .f32) (x1 : Vec Ideal S128x128 .f32) (p : Fin 5000) (q : Fin 128) :
    k0_pay1 x0 x1 (ix2 p q) = (∑ k : Fin 128, x0 (ix2 p k) * x1 (ix2 k q) : EReal) := by
  unfold k0_pay1
  rw [dims_eq]
  exact Cert.Lib.PlainDot.matmul_zero_apply none _ _ p q

/-- The index maps over the grid: the features' and the result's blocks move down one block per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A point of the grid is one of twenty. -/
theorem t_lt (t : Fin cfg0.N) : t.val < 20 := lt_of_lt_of_eq t.isLt N_0

/-- The features' block at point `t`, and the weights, as arrays of their literal shapes. -/
abbrev xblk (c : Dev nD) (t : Fin cfg0.N) : Vec Ideal S5000x128 .f32 := iblk0 V c 0 t
abbrev wblk (c : Dev nD) (t : Fin cfg0.N) : Vec Ideal S128x128 .f32 := iblk0 V c 1 t

/-- Entry `(p, k)` of the features' block at point `t` is the array's entry `(5000 t + p, k)`. -/
theorem xblk_apply (c : Dev nD) (t : Fin cfg0.N) (p : Fin 5000) (k : Fin 128) (h : t.val * 5000 + p.val < 100000) :
    xblk V c t (ix2 p k) = V c main_arg0 (ix2 (⟨t.val * 5000 + p.val, h⟩ : Fin 100000) k) := by
  show V c main_arg0 (((cfg0.win 0).blk t).view.emb (ix2 p k)) = _
  have e : ((cfg0.win 0).blk t).view.emb (ix2 p k) = ix2 (⟨t.val * 5000 + p.val, h⟩ : Fin 100000) k := by
    obtain ⟨e0, e1, -, -, -, -⟩ := idx_facts t
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  rw [e]

/-- The weights' block is the whole array at every point. -/
theorem wblk_apply (c : Dev nD) (t : Fin cfg0.N) (k : Fin 128) (q : Fin 128) :
    wblk V c t (ix2 k q) = V c main_arg2 (ix2 k q) := by
  show V c main_arg2 (((cfg0.win 1).blk t).view.emb (ix2 k q)) = _
  have e : ((cfg0.win 1).blk t).view.emb (ix2 k q) = ix2 k q := by
    obtain ⟨-, -, e2, e3, -, -⟩ := idx_facts t
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [e]

/-- Entry `(p, q)` of the result's block at point `t` sits in the array at `(5000 t + p, q)`. -/
theorem emb_out (t : Fin cfg0.N) (p : Fin 5000) (q : Fin 128) (h : t.val * 5000 + p.val < 100000) :
    ((cfg0.win 2).blk t).view.emb (ix2 p q) = ix2 (⟨t.val * 5000 + p.val, h⟩ : Fin 100000) q := by
  obtain ⟨-, -, -, -, e4, e5⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point `t` writes back is block `t` of `Spec.matProd` of the two arrays as the call finds them. -/
theorem flushed_eq (c : Dev nD) (t : Fin cfg0.N) :
    (dat0 V c).flushed 2 t = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  have key : ∀ (p : Fin 5000) (q : Fin 128), k0_pay1 (xblk V c t) (wblk V c t) (ix2 p q)
      = Cert.Spec.matProd (V c main_arg0) (V c main_arg2) (((cfg0.win 2).blk t).view.emb (ix2 p q)) := by
    intro p q
    have h : t.val * 5000 + p.val < 100000 := by have := t_lt t; have := p.isLt; omega
    rw [pay_apply, emb_out t p q h]
    refine Finset.sum_congr rfl fun k _ => ?_
    rw [xblk_apply V c t p k h, wblk_apply V c t k q] <;> rfl
  funext j
  show k0_pay1 (xblk V c t) (wblk V c t) j = Cert.Spec.matProd (V c main_arg0) (V c main_arg2) (((cfg0.win 2).blk t).view.emb j)
  rw [eq_ix2 (n0 := 5000) (n1 := 128) j]
  exact key (j 0) (j 1)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every row lies in the block of the point `row / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call the result's array holds `Spec.matProd` of the features and the weights as the call found them. -/
theorem arr_eq (c : Dev nD) : (dat0 V c).arrAt 2 cfg0.N = Cert.Spec.matProd (V c main_arg0) (V c main_arg2) :=
  (dat0 V c).arrAt_eq_of_cover 2 _ (fun t _ => flushed_eq V c t) cover

end Cert.KernelIdeal.Region0

end
-- ==== Proof.Region1.lean ====
/-
  The second kernel call: the aggregated features plus the one-row bias, then the maximum with zero. Point `t` of the
  20-point grid stages rows `5000 t … 5000 t + 4999` of the features and the bias row whole, and writes back the same
  rows of the result; what it writes at `(p, q)` is `max (a (5000 t + p, q) + b (0, q)) 0`, so the written blocks tile
  the array with `Spec.biasRelu a b`.
-/
import proofs.«164937_j88313117541056_1_alg».proof.Proof.Gen.KernelIdeal.Frame
import proofs.«164937_j88313117541056_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at `(p, q)`: the loaded entry plus the bias row's entry in that column, then the maximum with zero. -/
theorem pay_apply (x0 : Vec Ideal S5000x128 .f32) (x1 : Vec Ideal S1x128 .f32) (p : Fin 5000) (q : Fin 128) :
    k1_pay1 x0 x1 (ix2 p q) = (max (x0 (ix2 p q) + x1 (ix2 0 q)) 0 : EReal) := by
  unfold k1_pay1
  rw [maximumf_apply, addf_apply, shapeCast_self, shapeCast_self, broadcastTo_1b_ab_apply, broadcast_apply]
  show max _ (Ideal.ofBits .f32 0x00000000#32) = _
  rw [Ideal.ofBits_zero_f32]

/-- The index maps over the grid: the features' and the result's blocks move down one block per point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A point of the grid is one of twenty. -/
theorem t_lt (t : Fin cfg1.N) : t.val < 20 := lt_of_lt_of_eq t.isLt N_1

/-- The features' block at point `t`, and the bias row, as arrays of their literal shapes. -/
abbrev ablk (c : Dev nD) (t : Fin cfg1.N) : Vec Ideal S5000x128 .f32 := iblk1 V c 0 t
abbrev bblk (c : Dev nD) (t : Fin cfg1.N) : Vec Ideal S1x128 .f32 := iblk1 V c 1 t

/-- Entry `(p, q)` of the features' block at point `t` is the array's entry `(5000 t + p, q)`. -/
theorem ablk_apply (c : Dev nD) (t : Fin cfg1.N) (p : Fin 5000) (q : Fin 128) (h : t.val * 5000 + p.val < 100000) :
    ablk V c t (ix2 p q) = V c main_v40 (ix2 (⟨t.val * 5000 + p.val, h⟩ : Fin 100000) q) := by
  show V c main_v40 (((cfg1.win 0).blk t).view.emb (ix2 p q)) = _
  have e : ((cfg1.win 0).blk t).view.emb (ix2 p q) = ix2 (⟨t.val * 5000 + p.val, h⟩ : Fin 100000) q := by
    obtain ⟨e0, e1, -, -, -, -⟩ := idx_facts t
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  rw [e]

/-- The bias row's block is the row itself at every point. -/
theorem bblk_apply (c : Dev nD) (t : Fin cfg1.N) (q : Fin 128) :
    bblk V c t (ix2 0 q) = V c main_v41 (ix2 (0 : Fin 1) q) := by
  show V c main_v41 (((cfg1.win 1).blk t).view.emb (ix2 0 q)) = _
  have e : ((cfg1.win 1).blk t).view.emb (ix2 (0 : Fin 1) q) = ix2 (0 : Fin 1) q := by
    obtain ⟨-, -, e2, e3, -, -⟩ := idx_facts t
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [e]

/-- Entry `(p, q)` of the result's block at point `t` sits in the array at `(5000 t + p, q)`. -/
theorem emb_out (t : Fin cfg1.N) (p : Fin 5000) (q : Fin 128) (h : t.val * 5000 + p.val < 100000) :
    ((cfg1.win 2).blk t).view.emb (ix2 p q) = ix2 (⟨t.val * 5000 + p.val, h⟩ : Fin 100000) q := by
  obtain ⟨-, -, -, -, e4, e5⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- What point `t` writes back is block `t` of `Spec.biasRelu` of the two arrays as the call finds them. -/
theorem flushed_eq (c : Dev nD) (t : Fin cfg1.N) :
    (dat1 V c).flushed 2 t = ((cfg1.win 2).blk t).view.read (Elt Ideal) (Cert.Spec.biasRelu (V c main_v40) (V c main_v41)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  have key : ∀ (p : Fin 5000) (q : Fin 128), k1_pay1 (ablk V c t) (bblk V c t) (ix2 p q)
      = Cert.Spec.biasRelu (V c main_v40) (V c main_v41) (((cfg1.win 2).blk t).view.emb (ix2 p q)) := by
    intro p q
    have h : t.val * 5000 + p.val < 100000 := by have := t_lt t; have := p.isLt; omega
    rw [pay_apply, ablk_apply V c t p q h, bblk_apply, emb_out t p q h]
    rfl
  funext j
  show k1_pay1 (ablk V c t) (bblk V c t) j = Cert.Spec.biasRelu (V c main_v40) (V c main_v41) (((cfg1.win 2).blk t).view.emb j)
  rw [eq_ix2 (n0 := 5000) (n1 := 128) j]
  exact key (j 0) (j 1)

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Every row lies in the block of the point `row / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the call the result's array holds `Spec.biasRelu` of the features and the bias row as the call found them. -/
theorem arr_eq (c : Dev nD) : (dat1 V c).arrAt 2 cfg1.N = Cert.Spec.biasRelu (V c main_v40) (V c main_v41) :=
  (dat1 V c).arrAt_eq_of_cover 2 _ (fun t _ => flushed_eq V c t) cover

end Cert.KernelIdeal.Region1

end
-- ==== Proof.RefDot.lean ====
/-
  The reference's two matrix products, entry by entry.

  Each is the host's `dot_general` with the dimension numbers of an `M×K` by `K×N` product (contract the left
  operand's axis 1 with the right operand's axis 0, no batch axis), so over the extended reals its entry `(p, q)` is
  the sum over `k` of `x (p, k) * w (k, q)`: the product of the specification.
-/
import proofs.«164937_j88313117541056_1_alg».proof.ReferenceIdeal
import proofs.«164937_j88313117541056_1_alg».proof.Proof.Spec
import proofs.«164937_j88313117541056_1_alg».proof.Proof.LibPlainDot

noncomputable section

namespace Cert.ReferenceIdeal.RefDot

open Cert.ReferenceIdeal Idealize.ShloMosaic Idealize.ShloMosaic.ValueIdx

variable [Facts₀]

/-- The dimension numbers of the first product are the plain ones of a `100000×128` by `128×128` product. -/
theorem dims128_eq : dot_S100000x128_S128x128_S100000x128_1_0_0_1_n_n = DotDims.plain 100000 128 128 := rfl

/-- The dimension numbers of the second product are the plain ones of a `100000×128` by `128×64` product. -/
theorem dims64_eq : dot_S100000x128_S128x64_S100000x64_1_0_0_1_n_n = DotDims.plain 100000 128 64 := rfl

/-- The first layer's product `x · w`, `w` of 128 columns, is the matrix product of the specification. -/
theorem dot128_eq (x : FVec Ideal S100000x128 .f32) (w : FVec Ideal S128x128 .f32) :
    Host.dotGeneral (F := Ideal) dot_S100000x128_S128x128_S100000x128_1_0_0_1_n_n none x w = Cert.Spec.matProd x w := by
  funext i
  obtain ⟨p, q, rfl⟩ : ∃ (p : Fin 100000) (q : Fin 128), i = ix2 p q := ⟨i 0, i 1, eq_ix2 i⟩
  rw [dims128_eq]
  exact Cert.Lib.PlainDot.dotGeneral_apply none .single x w p q

/-- The second layer's product `x · w`, `w` of 64 columns, is the matrix product of the specification. -/
theorem dot64_eq (x : FVec Ideal S100000x128 .f32) (w : FVec Ideal S128x64 .f32) :
    Host.dotGeneral (F := Ideal) dot_S100000x128_S128x64_S100000x64_1_0_0_1_n_n none x w = Cert.Spec.matProd x w := by
  funext i
  obtain ⟨p, q, rfl⟩ : ∃ (p : Fin 100000) (q : Fin 64), i = ix2 p q := ⟨i 0, i 1, eq_ix2 i⟩
  rw [dims64_eq]
  exact Cert.Lib.PlainDot.dotGeneral_apply none .single x w p q

end Cert.ReferenceIdeal.RefDot

end
-- ==== Proof.LibBiasRow.lean ====
/-
  A bias vector laid along every row. A vector of `N` entries as a one-row matrix (`Spec.row`) is what a cast
  `[N] → [1, N]` makes of it and equally what a broadcast along axis 1 into `[1, N]` makes of it; a one-row matrix
  broadcast down `M` rows and added to an `M × N` array is `Spec.biased`; and the maximum with an all-zero array is the
  maximum with zero entry by entry.
-/
import proofs.«164937_j88313117541056_1_alg».proof.Proof.Spec
import Idealize.ShloMosaic.Lib.Pipeline.Value
import Idealize.ShloMosaic.Lib.ValueLayout
import Idealize.ShloMosaic.Lib.KernelVsHost
import Idealize.ShloMosaic.Lib.IdealHost

noncomputable section

namespace Cert.Spec

open Idealize.ShloMosaic Idealize.ShloMosaic.ValueIdx

variable {M N : Nat}

/-- A vector of `N` entries as a one-row matrix. -/
def row (b : FVec Ideal ⟨1, ![N]⟩ .f32) : FVec Ideal ⟨2, ![1, N]⟩ .f32 := fun i => b (ix1 (i 1))

/-- The cast `[N] → [1, N]` of a vector is its one-row matrix. -/
theorem shapeCast_row (b : FVec Ideal ⟨1, ![N]⟩ .f32) (h : (⟨1, ![N]⟩ : Shape).ShapeCasts ⟨2, ![1, N]⟩) :
    shapeCast ⟨2, ![1, N]⟩ b h = row b := by
  funext i
  rw [eq_ix2 (n0 := 1) (n1 := N) i]
  exact shapeCast_a_1a_apply b h (i 0) (i 1)

/-- The broadcast of a vector along axis 1 into `[1, N]` is its one-row matrix. -/
theorem broadcastInDim_row (b : FVec Ideal ⟨1, ![N]⟩ .f32) (h : (⟨1, ![N]⟩ : Shape).BroadcastsInDim ⟨2, ![1, N]⟩ ![1]) :
    broadcastInDim ⟨2, ![1, N]⟩ ![1] h b = row b := by
  funext i
  refine broadcastInDim_apply ![1] h b i (ix1 (i 1)) fun a => ?_
  match a with
  | ⟨0, _⟩ =>
    show (i 1).val = if N = 1 then 0 else (i 1).val
    split
    · have e : (i 1).val < N := (i 1).isLt; omega
    · rfl

/-- An array plus a one-row matrix broadcast down its rows is the array with the row added to every row. -/
theorem addf_oneRow (a : FVec Ideal ⟨2, ![M, N]⟩ .f32) (r : FVec Ideal ⟨2, ![1, N]⟩ .f32)
    (h : (⟨2, ![1, N]⟩ : Shape).BroadcastsInDim ⟨2, ![M, N]⟩ ![0, 1]) :
    addf a (broadcastInDim ⟨2, ![M, N]⟩ ![0, 1] h r) = biased a r := by
  have key : ∀ (p : Fin M) (q : Fin N), addf a (broadcastInDim ⟨2, ![M, N]⟩ ![0, 1] h r) (ix2 p q) = biased a r (ix2 p q) := by
    intro p q
    rw [addf_apply, broadcastInDim_oneRow_apply h r p q]
    rfl
  funext i
  rw [eq_ix2 (n0 := M) (n1 := N) i]
  exact key (i 0) (i 1)

/-- The maximum with the all-zero array is the maximum with zero, entry by entry; so the bias added and then that maximum
    is `biasRelu`. -/
theorem maximumf_biased_zero (a : FVec Ideal ⟨2, ![M, N]⟩ .f32) (r : FVec Ideal ⟨2, ![1, N]⟩ .f32)
    (h0 : (⟨0, ![]⟩ : Shape).BroadcastsInDim ⟨2, ![M, N]⟩ ![]) :
    maximumf (biased a r) (broadcastInDim ⟨2, ![M, N]⟩ ![] h0 (constant (F := Ideal) ⟨0, ![]⟩ .f32 0x00000000#32)) = biasRelu a r := by
  funext i
  rw [maximumf_apply, broadcastInDim_scalar_apply, constant_apply, Ideal.ofBits_zero_f32]
  rfl

end Cert.Spec

end
-- ==== Proof.BridgeB.lean ====
/-
  The first layer. The kernel's program takes the product `x · W1` in its first call, gathers every edge's source row,
  scales it by the edge's normalisation and sums it into the edge's target row on the host, and adds the bias and takes the
  maximum with zero in its second call; the reference does the same with the host's `dot_general`, a broadcast bias and a
  maximum with the zero array. The gather-scale-scatter stretch is the same operations in both programs and is carried as
  one function of the product, the two edge lists and the normalisation column; with those the same (the first stretch),
  the two results are the same array.
-/
import proofs.«164937_j88313117541056_1_alg».proof.Proof.Gen.KernelIdeal.Frame
import proofs.«164937_j88313117541056_1_alg».proof.Proof.RefChunks
import proofs.«164937_j88313117541056_1_alg».proof.Proof.BridgeA
import proofs.«164937_j88313117541056_1_alg».proof.Proof.RefPlain
import proofs.«164937_j88313117541056_1_alg».proof.Proof.Region0
import proofs.«164937_j88313117541056_1_alg».proof.Proof.Region1
import proofs.«164937_j88313117541056_1_alg».proof.Proof.RefDot
import proofs.«164937_j88313117541056_1_alg».proof.Proof.LibBiasRow

set_option maxRecDepth 16384

noncomputable section

namespace Cert.Bridge

open Cert.KernelIdeal Cert.KernelIdeal.Gen Cert.ReferenceIdeal.Chunks
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-- The reference's buffer contents after its second stretch. -/
def VB : Valuation Cert.ReferenceIdeal.τ Cert.ReferenceIdeal.sig (Elt Ideal) := after (opsB' (F := Ideal)) (VA m' c)

/-- The kernel program's host stretch between its first two calls: each edge's source row of `h` (a negative index wrapped), times the edge's normalisation, summed into the edge's target row. -/
def aggr128K (h : (⟨S100000x128, .f32⟩ : BufTy).Contents (Elt Ideal)) (s d : (⟨S1700000, .i32⟩ : BufTy).Contents (Elt Ideal))
    (n : (⟨S1700000x1, .f32⟩ : BufTy).Contents (Elt Ideal)) : (⟨S100000x128, .f32⟩ : BufTy).Contents (Elt Ideal) :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x128 ![0, 1] bcast_S1700000x1_S1700000x128_0_1 n))

/-- The same stretch as the reference spells it. -/
def aggr128R (h : (⟨Cert.ReferenceIdeal.S100000x128, .f32⟩ : BufTy).Contents (Elt Ideal)) (s d : (⟨Cert.ReferenceIdeal.S1700000, .i32⟩ : BufTy).Contents (Elt Ideal))
    (n : (⟨Cert.ReferenceIdeal.S1700000x1, .f32⟩ : BufTy).Contents (Elt Ideal)) : (⟨Cert.ReferenceIdeal.S100000x128, .f32⟩ : BufTy).Contents (Elt Ideal) :=
  Host.scatterAdd Cert.ReferenceIdeal.scatter_S100000x128_S1700000x1_S1700000x128_1_0_0_1
    (broadcastInDim Cert.ReferenceIdeal.S100000x128 ![] Cert.ReferenceIdeal.Gen.bcast_S_S100000x128 (constant (F := Ideal) Cert.ReferenceIdeal.S_ .f32 0x00000000#32))
    (broadcastInDim Cert.ReferenceIdeal.S1700000x1 ![0] Cert.ReferenceIdeal.Gen.bcast_S1700000_S1700000x1_0 d)
    (mulf
      (Host.gather Cert.ReferenceIdeal.gather_S100000x128_S1700000x1_S1700000x128_1_0_n_n_0_1_1128 h
        (broadcastInDim Cert.ReferenceIdeal.S1700000x1 ![0] Cert.ReferenceIdeal.Gen.bcast_S1700000_S1700000x1_0
          (select (cmpi .slt s (broadcastInDim Cert.ReferenceIdeal.S1700000 ![] Cert.ReferenceIdeal.Gen.bcast_S_S1700000 (constantI Cert.ReferenceIdeal.S_ 32 0#32)))
            (addi s (broadcastInDim Cert.ReferenceIdeal.S1700000 ![] Cert.ReferenceIdeal.Gen.bcast_S_S1700000 (constantI Cert.ReferenceIdeal.S_ 32 100000#32))) s)))
      (broadcastInDim Cert.ReferenceIdeal.S1700000x128 ![0, 1] Cert.ReferenceIdeal.Gen.bcast_S1700000x1_S1700000x128_0_1 n))

/-- The two spellings are the same function. -/
theorem aggr128_eq (h : (⟨S100000x128, .f32⟩ : BufTy).Contents (Elt Ideal)) (s d : (⟨S1700000, .i32⟩ : BufTy).Contents (Elt Ideal))
    (n : (⟨S1700000x1, .f32⟩ : BufTy).Contents (Elt Ideal)) : aggr128K h s d n = aggr128R h s d n := rfl

/-- The reference's first layer as a function of the features, the weights, the bias, the edge lists and the
    normalisation column. -/
def layer1R (x : FVec Ideal Cert.ReferenceIdeal.S100000x128 .f32) (w : FVec Ideal Cert.ReferenceIdeal.S128x128 .f32)
    (b : FVec Ideal Cert.ReferenceIdeal.S128 .f32) (s d : (⟨Cert.ReferenceIdeal.S1700000, .i32⟩ : BufTy).Contents (Elt Ideal))
    (n : (⟨Cert.ReferenceIdeal.S1700000x1, .f32⟩ : BufTy).Contents (Elt Ideal)) : (⟨Cert.ReferenceIdeal.S100000x128, .f32⟩ : BufTy).Contents (Elt Ideal) :=
  maximumf
    (addf (aggr128R (Host.dotGeneral (F := Ideal) Cert.ReferenceIdeal.dot_S100000x128_S128x128_S100000x128_1_0_0_1_n_n none x w) s d n)
      (broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b)))
    (broadcastInDim Cert.ReferenceIdeal.S100000x128 ![] Cert.ReferenceIdeal.Gen.bcast_S_S100000x128 (constant (F := Ideal) Cert.ReferenceIdeal.S_ .f32 0x00000000#32))

/-- It is the specification's bias-and-maximum of the aggregated product. -/
theorem layer1R_eq (x : FVec Ideal Cert.ReferenceIdeal.S100000x128 .f32) (w : FVec Ideal Cert.ReferenceIdeal.S128x128 .f32)
    (b : FVec Ideal Cert.ReferenceIdeal.S128 .f32) (s d : (⟨Cert.ReferenceIdeal.S1700000, .i32⟩ : BufTy).Contents (Elt Ideal))
    (n : (⟨Cert.ReferenceIdeal.S1700000x1, .f32⟩ : BufTy).Contents (Elt Ideal)) :
    layer1R x w b s d n = Cert.Spec.biasRelu (aggr128R (Cert.Spec.matProd x w) s d n) (Cert.Spec.row b) := by
  unfold layer1R
  rw [Cert.ReferenceIdeal.RefDot.dot128_eq, Cert.Spec.broadcastInDim_row, Cert.Spec.addf_oneRow, Cert.Spec.maximumf_biased_zero]

/-- The first kernel call leaves the product of the features and the first weights in its result buffer. -/
theorem W2_v28 : W2 m ρ c (Proc.devRef .tc main_v28)
    = Cert.Spec.matProd (m ((c.tc : Thread nD τ).loc main_arg0)) (m ((c.tc : Thread nD τ).loc main_arg2)) :=
  (W2_arr m ρ c 2).trans ((Cert.KernelIdeal.Region0.arr_eq (V1 m ρ) c).trans (by
    show Cert.Spec.matProd (W1 m ρ c (Proc.devRef .tc main_arg0)) (W1 m ρ c (Proc.devRef .tc main_arg2)) = _
    rw [W1_arg0, W1_arg2]))

/-- The host stretch between the first two calls does not write `main_v3`. -/
theorem W3_keep_main_v3 : W3 m ρ c (Proc.devRef .tc main_v3) = W2 m ρ c (Proc.devRef .tc main_v3) := by
  show after (hostOps1 (F := Ideal)) (W2 m ρ c) (Proc.devRef .tc main_v3) = _
  simp only [hostOps1]
  after_results

/-- The host stretch between the first two calls does not write `main_v6`. -/
theorem W3_keep_main_v6 : W3 m ρ c (Proc.devRef .tc main_v6) = W2 m ρ c (Proc.devRef .tc main_v6) := by
  show after (hostOps1 (F := Ideal)) (W2 m ρ c) (Proc.devRef .tc main_v6) = _
  simp only [hostOps1]
  after_results

/-- The host stretch between the first two calls does not write `main_v27`. -/
theorem W3_keep_main_v27 : W3 m ρ c (Proc.devRef .tc main_v27) = W2 m ρ c (Proc.devRef .tc main_v27) := by
  show after (hostOps1 (F := Ideal)) (W2 m ρ c) (Proc.devRef .tc main_v27) = _
  simp only [hostOps1]
  after_results

/-- The host stretch between the first two calls does not write `main_arg4`. -/
theorem W3_keep_main_arg4 : W3 m ρ c (Proc.devRef .tc main_arg4) = W2 m ρ c (Proc.devRef .tc main_arg4) := by
  show after (hostOps1 (F := Ideal)) (W2 m ρ c) (Proc.devRef .tc main_arg4) = _
  simp only [hostOps1]
  after_results

/-- The host stretch between the first two calls does not write `main_arg5`. -/
theorem W3_keep_main_arg5 : W3 m ρ c (Proc.devRef .tc main_arg5) = W2 m ρ c (Proc.devRef .tc main_arg5) := by
  show after (hostOps1 (F := Ideal)) (W2 m ρ c) (Proc.devRef .tc main_arg5) = _
  simp only [hostOps1]
  after_results

/-- The reference's second stretch does not write `main_v3`. -/
theorem VB_keep_main_v3 : VB m' c (Proc.devRef .tc Cert.ReferenceIdeal.main_v3) = VA m' c (Proc.devRef .tc Cert.ReferenceIdeal.main_v3) := by
  show after (opsB' (F := Ideal)) (VA m' c) (Proc.devRef .tc Cert.ReferenceIdeal.main_v3) = _
  simp only [opsB']
  after_results

/-- The reference's second stretch does not write `main_v6`. -/
theorem VB_keep_main_v6 : VB m' c (Proc.devRef .tc Cert.ReferenceIdeal.main_v6) = VA m' c (Proc.devRef .tc Cert.ReferenceIdeal.main_v6) := by
  show after (opsB' (F := Ideal)) (VA m' c) (Proc.devRef .tc Cert.ReferenceIdeal.main_v6) = _
  simp only [opsB']
  after_results

/-- The reference's second stretch does not write `main_v26`. -/
theorem VB_keep_main_v26 : VB m' c (Proc.devRef .tc Cert.ReferenceIdeal.main_v26) = VA m' c (Proc.devRef .tc Cert.ReferenceIdeal.main_v26) := by
  show after (opsB' (F := Ideal)) (VA m' c) (Proc.devRef .tc Cert.ReferenceIdeal.main_v26) = _
  simp only [opsB']
  after_results

/-- The reference's second stretch does not write `main_arg4`. -/
theorem VB_keep_main_arg4 : VB m' c (Proc.devRef .tc Cert.ReferenceIdeal.main_arg4) = VA m' c (Proc.devRef .tc Cert.ReferenceIdeal.main_arg4) := by
  show after (opsB' (F := Ideal)) (VA m' c) (Proc.devRef .tc Cert.ReferenceIdeal.main_arg4) = _
  simp only [opsB']
  after_results

/-- The reference's second stretch does not write `main_arg5`. -/
theorem VB_keep_main_arg5 : VB m' c (Proc.devRef .tc Cert.ReferenceIdeal.main_arg5) = VA m' c (Proc.devRef .tc Cert.ReferenceIdeal.main_arg5) := by
  show after (opsB' (F := Ideal)) (VA m' c) (Proc.devRef .tc Cert.ReferenceIdeal.main_arg5) = _
  simp only [opsB']
  after_results

set_option maxHeartbeats 2000000 in
/-- What the host stretch leaves for the second call's first operand. -/
theorem W3_v40 : W3 m ρ c (Proc.devRef .tc main_v40)
    = aggr128K (W2 m ρ c (Proc.devRef .tc main_v28)) (W2 m ρ c (Proc.devRef .tc main_v3)) (W2 m ρ c (Proc.devRef .tc main_v6))
        (W2 m ρ c (Proc.devRef .tc main_v27)) := by
  show after (hostOps1 (F := Ideal)) (W2 m ρ c) (Proc.devRef .tc main_v40) = _
  simp only [hostOps1]
  after_results
  rfl

/-- What it leaves for the second operand: the bias as a one-row matrix. -/
theorem W3_v41 : W3 m ρ c (Proc.devRef .tc main_v41) = Cert.Spec.row (W2 m ρ c (Proc.devRef .tc main_arg3)) := by
  show after (hostOps1 (F := Ideal)) (W2 m ρ c) (Proc.devRef .tc main_v41) = _
  simp only [hostOps1]
  after_results
  exact Cert.Spec.shapeCast_row (W2 m ρ c (Proc.devRef .tc main_arg3)) shapeCasts_S128_S1x128

set_option maxHeartbeats 4000000 in
/-- What the reference's second stretch leaves in the first layer's result buffer. -/
theorem VB_v44 : VB m' c (Proc.devRef .tc Cert.ReferenceIdeal.main_v44)
    = layer1R (VA m' c (Proc.devRef .tc Cert.ReferenceIdeal.main_arg0)) (VA m' c (Proc.devRef .tc Cert.ReferenceIdeal.main_arg2))
        (VA m' c (Proc.devRef .tc Cert.ReferenceIdeal.main_arg3)) (VA m' c (Proc.devRef .tc Cert.ReferenceIdeal.main_v3)) (VA m' c (Proc.devRef .tc Cert.ReferenceIdeal.main_v6))
        (broadcastInDim Cert.ReferenceIdeal.S1700000x1 ![0] Cert.ReferenceIdeal.Gen.bcast_S1700000_S1700000x1_0 (VA m' c (Proc.devRef .tc Cert.ReferenceIdeal.main_v26))) := by
  show after (opsB' (F := Ideal)) (VA m' c) (Proc.devRef .tc Cert.ReferenceIdeal.main_v44) = _
  simp only [opsB']
  after_results
  rfl

/-- The first layer's result: the kernel's second call leaves what the reference's maximum with zero leaves. -/
theorem relu_eq (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) :
    W4 m ρ c (Proc.devRef .tc main_v42) = VB m' c (Proc.devRef .tc Cert.ReferenceIdeal.main_v44) := by
  refine (W4_arr m ρ c 2).trans ((Cert.KernelIdeal.Region1.arr_eq (V3 m ρ) c).trans ?_)
  show Cert.Spec.biasRelu (W3 m ρ c (Proc.devRef .tc main_v40)) (W3 m ρ c (Proc.devRef .tc main_v41)) = _
  rw [W3_v40 m ρ c, W3_v41 m ρ c, W2_v28 m ρ c, W2_of_ne m ρ c main_v3 (by decide), W2_of_ne m ρ c main_v6 (by decide),
    W2_of_ne m ρ c main_v27 (by decide), W2_of_ne m ρ c main_arg3 (by decide), src_eq m ρ m' c h1, dst_eq m ρ m' c h1,
    nrm_eq m ρ m' c h1, W1_arg3 m ρ c]
  rw [VB_v44 m' c, layer1R_eq, VA_arg0 m' c, VA_arg2 m' c, VA_arg3 m' c, h0, h2, h3, aggr128_eq]

end Cert.Bridge

end
-- ==== Proof.Region2.lean ====
/-
  The third kernel call: the hidden features times the second layer's weights. Point `t` of the 20-point grid stages
  rows `5000 t … 5000 t + 4999` of the hidden features and the weights whole, and writes back the same rows of the
  result; what it writes at `(p, q)` is the sum over `k` of `h (5000 t + p, k) * w (k, q)` (the reshape to the same
  shape and the conversions to the narrower format are the identity over the extended reals, and the accumulator
  starts at zero), so the written blocks tile the array with `Spec.matProd h w`.
-/
import proofs.«164937_j88313117541056_1_alg».proof.Proof.Gen.KernelIdeal.Frame
import proofs.«164937_j88313117541056_1_alg».proof.Proof.Spec
import proofs.«164937_j88313117541056_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones of a `5000×128` by `128×64` product. -/
theorem dims_eq : dot_S5000x128_S128x64_S5000x64_1_0_0_1_n_n = DotDims.plain 5000 128 64 := rfl

/-- The body's value at `(p, q)`: the sum over `k` of the loaded block's `(p, k)` times the weights' `(k, q)`. -/
theorem pay_apply (x0 : Vec Ideal S5000x128 .f32) (x1 : Vec Ideal S128x64 .f32) (p : Fin 5000) (q : Fin 64) :
    k2_pay1 x0 x1 (ix2 p q) = (∑ k : Fin 128, x0 (ix2 p k) * x1 (ix2 k q) : EReal) := by
  unfold k2_pay1
  rw [dims_eq, shapeCast_self]
  exact Cert.Lib.PlainDot.matmul_zero_apply none _ _ p q

/-- The index maps over the grid: the hidden features' and the result's blocks move down one block per point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A point of the grid is one of twenty. -/
theorem t_lt (t : Fin cfg2.N) : t.val < 20 := lt_of_lt_of_eq t.isLt N_2

/-- The hidden features' block at point `t`, and the weights, as arrays of their literal shapes. -/
abbrev xblk (c : Dev nD) (t : Fin cfg2.N) : Vec Ideal S5000x128 .f32 := iblk2 V c 0 t
abbrev wblk (c : Dev nD) (t : Fin cfg2.N) : Vec Ideal S128x64 .f32 := iblk2 V c 1 t

/-- Entry `(p, k)` of the hidden features' block at point `t` is the array's entry `(5000 t + p, k)`. -/
theorem xblk_apply (c : Dev nD) (t : Fin cfg2.N) (p : Fin 5000) (k : Fin 128) (h : t.val * 5000 + p.val < 100000) :
    xblk V c t (ix2 p k) = V c main_v42 (ix2 (⟨t.val * 5000 + p.val, h⟩ : Fin 100000) k) := by
  show V c main_v42 (((cfg2.win 0).blk t).view.emb (ix2 p k)) = _
  have e : ((cfg2.win 0).blk t).view.emb (ix2 p k) = ix2 (⟨t.val * 5000 + p.val, h⟩ : Fin 100000) k := by
    obtain ⟨e0, e1, -, -, -, -⟩ := idx_facts t
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  rw [e]

/-- The weights' block is the whole array at every point. -/
theorem wblk_apply (c : Dev nD) (t : Fin cfg2.N) (k : Fin 128) (q : Fin 64) :
    wblk V c t (ix2 k q) = V c main_arg4 (ix2 k q) := by
  show V c main_arg4 (((cfg2.win 1).blk t).view.emb (ix2 k q)) = _
  have e : ((cfg2.win 1).blk t).view.emb (ix2 k q) = ix2 k q := by
    obtain ⟨-, -, e2, e3, -, -⟩ := idx_facts t
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  rw [e]

/-- Entry `(p, q)` of the result's block at point `t` sits in the array at `(5000 t + p, q)`. -/
theorem emb_out (t : Fin cfg2.N) (p : Fin 5000) (q : Fin 64) (h : t.val * 5000 + p.val < 100000) :
    ((cfg2.win 2).blk t).view.emb (ix2 p q) = ix2 (⟨t.val * 5000 + p.val, h⟩ : Fin 100000) q := by
  obtain ⟨-, -, -, -, e4, e5⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 64 + 1 * q.val = q.val; omega

/-- What point `t` writes back is block `t` of `Spec.matProd` of the two arrays as the call finds them. -/
theorem flushed_eq (c : Dev nD) (t : Fin cfg2.N) :
    (dat2 V c).flushed 2 t = ((cfg2.win 2).blk t).view.read (Elt Ideal) (Cert.Spec.matProd (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  have key : ∀ (p : Fin 5000) (q : Fin 64), k2_pay1 (xblk V c t) (wblk V c t) (ix2 p q)
      = Cert.Spec.matProd (V c main_v42) (V c main_arg4) (((cfg2.win 2).blk t).view.emb (ix2 p q)) := by
    intro p q
    have h : t.val * 5000 + p.val < 100000 := by have := t_lt t; have := p.isLt; omega
    rw [pay_apply, emb_out t p q h]
    refine Finset.sum_congr rfl fun k _ => ?_
    rw [xblk_apply V c t p k h, wblk_apply V c t k q] <;> rfl
  funext j
  show k2_pay1 (xblk V c t) (wblk V c t) j = Cert.Spec.matProd (V c main_v42) (V c main_arg4) (((cfg2.win 2).blk t).view.emb j)
  rw [eq_ix2 (n0 := 5000) (n1 := 64) j]
  exact key (j 0) (j 1)

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Every row lies in the block of the point `row / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the call the result's array holds `Spec.matProd` of the hidden features and the weights as the call found them. -/
theorem arr_eq (c : Dev nD) : (dat2 V c).arrAt 2 cfg2.N = Cert.Spec.matProd (V c main_v42) (V c main_arg4) :=
  (dat2 V c).arrAt_eq_of_cover 2 _ (fun t _ => flushed_eq V c t) cover

end Cert.KernelIdeal.Region2

end
-- ==== Proof.Region3.lean ====
/-
  The fourth kernel call: the aggregated features plus the one-row bias, then the row-wise log-softmax. Point `t` of the
  20-point grid stages rows `5000 t … 5000 t + 4999` of the features and the bias row whole, and writes back the same
  rows of the result. What it writes at `(p, q)` depends on row `p` of the staged block only: with `y = x + b` on that
  row, the row's maximum folded from -∞ is taken off, and the logarithm of the row's sum of exponentials of the
  differences is taken off. A row of the block is a row of the array, so the written blocks tile the array with
  `Spec.biasLogSoftmax a b`.
-/
import proofs.«164937_j88313117541056_1_alg».proof.Proof.Gen.KernelIdeal.Frame
import proofs.«164937_j88313117541056_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The loaded block plus the bias row on every row. -/
theorem biased_eq (x0 : Vec Ideal S5000x64 .f32) (x1 : Vec Ideal S1x64 .f32) (h0 : S5000x64.ShapeCasts S5000x64)
    (h1 : S1x64.ShapeCasts S1x64) (hb : S1x64.Broadcasts S5000x64) :
    addf (shapeCast S5000x64 x0 h0) (broadcastTo S5000x64 (shapeCast S1x64 x1 h1) hb) = Cert.Spec.biased (M := 5000) (N := 64) x0 x1 := by
  funext i
  obtain ⟨p, q, rfl⟩ : ∃ p q, i = ix2 p q := ⟨i 0, i 1, eq_ix2 i⟩
  rw [addf_apply, shapeCast_self, shapeCast_self, broadcastTo_1b_ab_apply]
  rfl

/-- Row `p`'s reduced index with column `k` put back is `(p, k)`. -/
theorem lift_col (h : S5000x64.Reduces [1] S5000) (p : Fin 5000) (k : Fin (S5000x64.size 1)) :
    h.lift (ix1 p) k = ix2 p (⟨k.val, k.isLt⟩ : Fin 64) := by
  funext c; apply Fin.ext
  fin_cases c <;> rfl

/-- The reduction with a maximum body from the word of -∞ over the columns, at row `p`, is the row's maximum. -/
theorem rowMax_apply (y : FVec Ideal S5000x64 .f32) (h : S5000x64.Reduces [1] S5000) (hφ : FKind.Formats .f32)
    (hacc : (0xFF800000#32 : BitVec 32) = 0xFF800000#32) (p : Fin 5000) :
    multiReduction .maximumf [1] S5000 y 0xFF800000#32 h hφ hacc (ix1 p) = Cert.Spec.rowMax (M := 5000) (N := 64) y p := by
  refine (Ideal.multiReduction_maximumf_single y 0xFF800000#32 h hφ hacc (ix1 p)).trans ?_
  show Finset.fold max (Ideal.ofBits .f32 0xFF800000#32) (y ∘ h.lift (ix1 p)) (Finset.univ : Finset (Fin 64)) = _
  rw [Cert.Spec.ofBits_neg_inf]
  exact congrArg (fun f => Finset.fold max (⊥ : EReal) f (Finset.univ : Finset (Fin 64)))
    (funext fun k => congrArg y (lift_col h p k))

/-- The reduction with + from the zero word over the columns, at row `p`, is the sum of the row's entries. -/
theorem rowSum_apply (x : FVec Ideal S5000x64 .f32) (h : S5000x64.Reduces [1] S5000) (hφ : FKind.Formats .f32)
    (hacc : (0x00000000#32 : BitVec 32) = 0x00000000#32) (p : Fin 5000) :
    multiReduction .add [1] S5000 x 0x00000000#32 h hφ hacc (ix1 p) = ∑ k : Fin 64, x (ix2 p k) := by
  refine (Ideal.multiReduction_add_single x 0x00000000#32 h hφ hacc (ix1 p)).trans ?_
  exact Finset.sum_congr rfl fun k _ => congrArg x (lift_col h p k)

/-- One number per row, written as a column. -/
theorem colCast_apply {α : Type} (v : S5000.Idx → α) (h : S5000.ShapeCasts S5000x1) (p : Fin 5000) :
    shapeCast S5000x1 v h (ix2 p (0 : Fin 1)) = v (ix1 p) :=
  shapeCast_apply v h _ _ (by
    rw [Shape.rowMajor_val_one, Shape.rowMajor_val_two]
    show p.val = p.val * 1 + 0
    omega)

/-- A column of one entry per row, repeated along the rows' 64 columns. -/
theorem bcastCol_apply {α : Type} (w : S5000x1.Idx → α) (h : S5000x1.Broadcasts S5000x64) (p : Fin 5000) (q : Fin 64) :
    broadcastTo S5000x64 w h (ix2 p q) = w (ix2 p (0 : Fin 1)) :=
  broadcastTo_apply w h (ix2 p q) (ix2 p (0 : Fin 1)) fun a => by fin_cases a <;> rfl

/-- A block less its rows' maxima, as the body composes it. -/
theorem shifted_eq (y : FVec Ideal S5000x64 .f32) (h : S5000x64.Reduces [1] S5000) (hφ : FKind.Formats .f32)
    (hacc : (0xFF800000#32 : BitVec 32) = 0xFF800000#32) (hc : S5000.ShapeCasts S5000x1) (hb : S5000x1.Broadcasts S5000x64) :
    subf y (broadcastTo S5000x64 (shapeCast S5000x1 (multiReduction .maximumf [1] S5000 y 0xFF800000#32 h hφ hacc) hc) hb)
      = Cert.Spec.shifted (M := 5000) (N := 64) y := by
  funext i
  obtain ⟨p, q, rfl⟩ : ∃ p q, i = ix2 p q := ⟨i 0, i 1, eq_ix2 i⟩
  rw [subf_apply, bcastCol_apply, colCast_apply, rowMax_apply]
  rfl

/-- The logarithm of a row's sum, as the body composes it from the block `x` of the summands. -/
theorem logSum_apply (x : FVec Ideal S5000x64 .f32) (h : S5000x64.Reduces [1] S5000) (hφ : FKind.Formats .f32)
    (hacc : (0x00000000#32 : BitVec 32) = 0x00000000#32) (hc : S5000.ShapeCasts S5000x1) (hb : S5000x1.Broadcasts S5000x64)
    (p : Fin 5000) (q : Fin 64) :
    broadcastTo S5000x64 (log (shapeCast S5000x1 (multiReduction .add [1] S5000 x 0x00000000#32 h hφ hacc) hc)) hb (ix2 p q)
      = Ideal.log (∑ k : Fin 64, x (ix2 p k)) := by
  rw [bcastCol_apply]
  unfold log
  rw [Ideal.log_def, colCast_apply, rowSum_apply]

/-- The exponential of a block, entry by entry. -/
theorem exp_apply (x : FVec Ideal S5000x64 .f32) (i : S5000x64.Idx) : Idealize.ShloMosaic.exp x i = Ideal.exp (x i) := by
  unfold Idealize.ShloMosaic.exp
  rw [Ideal.exp_def]

/-- The body's value at `(p, q)`: the log-softmax of the biased block's row `p`, at column `q`. -/
theorem pay_apply (x0 : Vec Ideal S5000x64 .f32) (x1 : Vec Ideal S1x64 .f32) (p : Fin 5000) (q : Fin 64) :
    k3_pay1 x0 x1 (ix2 p q) = Cert.Spec.logSoftmax (M := 5000) (N := 64) (Cert.Spec.biased x0 x1) (ix2 p q) := by
  unfold k3_pay1
  rw [biased_eq, shifted_eq, subf_apply, logSum_apply]
  unfold Cert.Spec.logSoftmax
  simp only [exp_apply]

/-! ## A row decides the log-softmax on it -/

/-- The log-softmax at `(p, q)` reads row `p` only: two arrays, of whatever heights, that agree on a row of each have the
    same value there. -/
theorem logSoftmax_row {M M' N : Nat} (y : FVec Ideal ⟨2, ![M, N]⟩ .f32) (y' : FVec Ideal ⟨2, ![M', N]⟩ .f32) (p : Fin M) (p' : Fin M')
    (h : ∀ k : Fin N, y (ix2 p k) = y' (ix2 p' k)) (q : Fin N) :
    Cert.Spec.logSoftmax y (ix2 p q) = Cert.Spec.logSoftmax y' (ix2 p' q) := by
  have hm : Cert.Spec.rowMax y p = Cert.Spec.rowMax y' p' := by
    unfold Cert.Spec.rowMax
    exact congrArg (fun f => Finset.fold max (⊥ : EReal) f (Finset.univ : Finset (Fin N))) (funext h)
  show (y (ix2 p q) - Cert.Spec.rowMax y p) - Ideal.log (∑ k : Fin N, Ideal.exp (y (ix2 p k) - Cert.Spec.rowMax y p))
    = (y' (ix2 p' q) - Cert.Spec.rowMax y' p') - Ideal.log (∑ k : Fin N, Ideal.exp (y' (ix2 p' k) - Cert.Spec.rowMax y' p'))
  rw [hm, h q]
  simp only [h]

/-- The biased array on a row reads that row and the bias row: arrays that agree on a row of each, under bias rows that
    agree, have the same biased row. -/
theorem biased_row {M M' N : Nat} (a : FVec Ideal ⟨2, ![M, N]⟩ .f32) (b : FVec Ideal ⟨2, ![1, N]⟩ .f32)
    (a' : FVec Ideal ⟨2, ![M', N]⟩ .f32) (b' : FVec Ideal ⟨2, ![1, N]⟩ .f32) (p : Fin M) (p' : Fin M')
    (ha : ∀ k : Fin N, a (ix2 p k) = a' (ix2 p' k)) (hb : ∀ k : Fin N, b (ix2 0 k) = b' (ix2 0 k)) (k : Fin N) :
    Cert.Spec.biased a b (ix2 p k) = Cert.Spec.biased a' b' (ix2 p' k) := by
  show (a (ix2 p k) + b (ix2 0 k) : EReal) = (a' (ix2 p' k) + b' (ix2 0 k) : EReal)
  rw [ha, hb]

/-! ## From blocks to the array -/

/-- The index maps over the grid: the features' and the result's blocks move down one block per point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A point of the grid is one of twenty. -/
theorem t_lt (t : Fin cfg3.N) : t.val < 20 := lt_of_lt_of_eq t.isLt N_3

/-- The features' block at point `t`, and the bias row, as arrays of their literal shapes. -/
abbrev ablk (c : Dev nD) (t : Fin cfg3.N) : Vec Ideal S5000x64 .f32 := iblk3 V c 0 t
abbrev bblk (c : Dev nD) (t : Fin cfg3.N) : Vec Ideal S1x64 .f32 := iblk3 V c 1 t

/-- Entry `(p, q)` of the features' block at point `t` is the array's entry `(5000 t + p, q)`. -/
theorem ablk_apply (c : Dev nD) (t : Fin cfg3.N) (p : Fin 5000) (q : Fin 64) (h : t.val * 5000 + p.val < 100000) :
    ablk V c t (ix2 p q) = V c main_v55 (ix2 (⟨t.val * 5000 + p.val, h⟩ : Fin 100000) q) := by
  show V c main_v55 (((cfg3.win 0).blk t).view.emb (ix2 p q)) = _
  have e : ((cfg3.win 0).blk t).view.emb (ix2 p q) = ix2 (⟨t.val * 5000 + p.val, h⟩ : Fin 100000) q := by
    obtain ⟨e0, e1, -, -, -, -⟩ := idx_facts t
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  rw [e]

/-- The bias row's block is the row itself at every point. -/
theorem bblk_apply (c : Dev nD) (t : Fin cfg3.N) (q : Fin 64) :
    bblk V c t (ix2 0 q) = V c main_v56 (ix2 (0 : Fin 1) q) := by
  show V c main_v56 (((cfg3.win 1).blk t).view.emb (ix2 0 q)) = _
  have e : ((cfg3.win 1).blk t).view.emb (ix2 (0 : Fin 1) q) = ix2 (0 : Fin 1) q := by
    obtain ⟨-, -, e2, e3, -, -⟩ := idx_facts t
    funext a; apply Fin.ext
    match a with
    | ⟨0, _⟩ => show win3_1.index t (0 : Fin 2) * 1 + 1 * 0 = 0; omega
    | ⟨1, _⟩ => show win3_1.index t (1 : Fin 2) * 64 + 1 * q.val = q.val; omega
  rw [e]

/-- Entry `(p, q)` of the result's block at point `t` sits in the array at `(5000 t + p, q)`. -/
theorem emb_out (t : Fin cfg3.N) (p : Fin 5000) (q : Fin 64) (h : t.val * 5000 + p.val < 100000) :
    ((cfg3.win 2).blk t).view.emb (ix2 p q) = ix2 (⟨t.val * 5000 + p.val, h⟩ : Fin 100000) q := by
  obtain ⟨-, -, -, -, e4, e5⟩ := idx_facts t
  funext a; apply Fin.ext
  match a with
  | ⟨0, _⟩ => show win3_2.index t (0 : Fin 2) * 5000 + 1 * p.val = t.val * 5000 + p.val; omega
  | ⟨1, _⟩ => show win3_2.index t (1 : Fin 2) * 64 + 1 * q.val = q.val; omega

/-- What point `t` writes back is block `t` of `Spec.biasLogSoftmax` of the two arrays as the call finds them: row `p` of
    the staged block plus the bias row is row `5000 t + p` of the biased array. -/
theorem flushed_eq (c : Dev nD) (t : Fin cfg3.N) :
    (dat3 V c).flushed 2 t = ((cfg3.win 2).blk t).view.read (Elt Ideal) (Cert.Spec.biasLogSoftmax (V c main_v55) (V c main_v56)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  have key : ∀ (p : Fin 5000) (q : Fin 64), k3_pay1 (ablk V c t) (bblk V c t) (ix2 p q)
      = Cert.Spec.biasLogSoftmax (V c main_v55) (V c main_v56) (((cfg3.win 2).blk t).view.emb (ix2 p q)) := by
    intro p q
    have h : t.val * 5000 + p.val < 100000 := by have := t_lt t; have := p.isLt; omega
    rw [pay_apply, emb_out t p q h]
    show Cert.Spec.logSoftmax (Cert.Spec.biased (ablk V c t) (bblk V c t)) (ix2 p q)
      = Cert.Spec.logSoftmax (Cert.Spec.biased (V c main_v55) (V c main_v56)) (ix2 (⟨t.val * 5000 + p.val, h⟩ : Fin 100000) q)
    refine logSoftmax_row _ _ p ⟨t.val * 5000 + p.val, h⟩ (fun k => ?_) q
    exact biased_row (M := 5000) (M' := 100000) (N := 64) _ _ _ _ p ⟨t.val * 5000 + p.val, h⟩ (fun k => ablk_apply V c t p k h) (fun k => bblk_apply V c t k) k
  funext j
  show k3_pay1 (ablk V c t) (bblk V c t) j = Cert.Spec.biasLogSoftmax (V c main_v55) (V c main_v56) (((cfg3.win 2).blk t).view.emb j)
  rw [eq_ix2 (n0 := 5000) (n1 := 64) j]
  exact key (j 0) (j 1)

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v57).slice (win3_2.rect t)).set ↔ _
  rw [View.set_slice_whole, Rect.mem_set_unit]
  exact Iff.rfl

/-- Every row lies in the block of the point `row / 5000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 5000, by rw [show cfg3.N = 20 from N_3]; omega⟩
  obtain ⟨-, -, -, -, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the call the result's array holds `Spec.biasLogSoftmax` of the features and the bias row as the call found them. -/
theorem arr_eq (c : Dev nD) : (dat3 V c).arrAt 2 cfg3.N = Cert.Spec.biasLogSoftmax (V c main_v55) (V c main_v56) :=
  (dat3 V c).arrAt_eq_of_cover 2 _ (fun t _ => flushed_eq V c t) cover

end Cert.KernelIdeal.Region3

end
-- ==== Proof.RefLogSoftmax.lean ====
/-
  The reference's row-wise log-softmax of a 100000 × 64 array over the extended reals, written as one composed term of the
  host's operations, is the log-softmax of the specification. At entry (p, q): the row's maximum is the fold of the
  maximum from -∞ over the 64 columns (the further maximum with -∞ changes nothing); it is taken off the entry; the
  row's sum of the exponentials of these differences is the reduce with + from 0, which adds nothing; its logarithm is
  taken off the difference. The two broadcasts between a row's number and the array only repeat it along the row.
-/
import proofs.«164937_j88313117541056_1_alg».proof.Proof.Gen.ReferenceIdeal
import proofs.«164937_j88313117541056_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefLogSoftmax

open Cert.ReferenceIdeal Cert.ReferenceIdeal.Gen Idealize.ShloMosaic Idealize.ShloMosaic.ValueIdx

/-- The reference's log-softmax of a whole array, as the host composes it. -/
def refLogSoftmax (y : FVec Ideal S100000x64 .f32) : FVec Ideal S100000x64 .f32 :=
  subf (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_)))))
    (broadcastInDim S100000x64 ![0, 1] bcast_S100000x1_S100000x64_0_1 (Host.log (broadcastInDim S100000x1 ![0] bcast_S100000_S100000x1_0 (Host.reduceAdd (Host.exp (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_)))))) (constant S_ .f32 0x00000000#32) reducesTo_S100000x64_S100000_d1 h_S_))))

/-- The columns are the one reduced axis. -/
theorem reduces_cols : S100000x64.Reduces [1] S100000 := by decide

/-- Row `p`'s reduced index with column `k` put back is `(p, k)`. -/
theorem lift_col (h : S100000x64.Reduces [1] S100000) (p : Fin 100000) (k : Fin (S100000x64.size 1)) :
    h.lift (ix1 p) k = ix2 p (⟨k.val, k.isLt⟩ : Fin 64) := by
  funext c; apply Fin.ext
  fin_cases c <;> rfl

/-- A column of one entry per row, repeated along the rows' 64 columns. -/
theorem bcastCol_apply {α : Type} (w : S100000x1.Idx → α) (p : Fin 100000) (q : Fin 64) :
    broadcastInDim S100000x64 ![0, 1] bcast_S100000x1_S100000x64_0_1 w (ix2 p q) = w (ix2 p (0 : Fin 1)) :=
  broadcastInDim_apply _ _ w (ix2 p q) (ix2 p (0 : Fin 1)) fun a => by fin_cases a <;> rfl

/-- One number per row, written as a column. -/
theorem bcastUnit_apply {α : Type} (v : S100000.Idx → α) (p : Fin 100000) :
    broadcastInDim S100000x1 ![0] bcast_S100000_S100000x1_0 v (ix2 p (0 : Fin 1)) = v (ix1 p) :=
  broadcastInDim_apply _ _ v (ix2 p (0 : Fin 1)) (ix1 p) fun a => by fin_cases a; rfl

/-- The host's reduce with a maximum body from -∞ over the columns, at row `p`, is the row's maximum. -/
theorem hostMax_apply (y : FVec Ideal S100000x64 .f32) (p : Fin 100000) :
    Host.reduce FloatOps.maximumf y (constant (F := Ideal) S_ .f32 0xFF800000#32) reducesTo_S100000x64_S100000_d1 h_S_ (ix1 p)
      = Cert.Spec.rowMax y p := by
  rw [Host.reduce_eq_fold_single FloatOps.maximumf y _ reducesTo_S100000x64_S100000_d1 reduces_cols h_S_]
  show Finset.fold max (Ideal.ofBits .f32 0xFF800000#32) (y ∘ reduces_cols.lift (ix1 p)) (Finset.univ : Finset (Fin 64)) = _
  rw [Cert.Spec.ofBits_neg_inf]
  exact congrArg (fun f => Finset.fold max (⊥ : EReal) f (Finset.univ : Finset (Fin 64)))
    (funext fun k => congrArg y (lift_col reduces_cols p k))

/-- The further maximum with the broadcast -∞ leaves the row's maximum. -/
theorem refRowMax_apply (y : FVec Ideal S100000x64 .f32) (p : Fin 100000) :
    maximumf (broadcastInDim S100000 ![] bcast_S_S100000 (constant (F := Ideal) S_ .f32 0xFF800000#32))
      (Host.reduce FloatOps.maximumf y (constant (F := Ideal) S_ .f32 0xFF800000#32) reducesTo_S100000x64_S100000_d1 h_S_) (ix1 p)
      = Cert.Spec.rowMax y p := by
  rw [maximumf_apply, hostMax_apply]
  exact Cert.Spec.max_neg_inf _

/-- The array less its rows' maxima, as the reference composes it. -/
theorem refShifted_eq (y : FVec Ideal S100000x64 .f32) :
    subf y (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce FloatOps.maximumf y (constant (F := Ideal) S_ .f32 0xFF800000#32) reducesTo_S100000x64_S100000_d1 h_S_))))
      = Cert.Spec.shifted y := by
  funext i
  obtain ⟨p, q, rfl⟩ : ∃ p q, i = ix2 p q := ⟨i 0, i 1, eq_ix2 i⟩
  rw [subf_apply, bcastCol_apply, bcastUnit_apply, refRowMax_apply]
  rfl

/-- The host's reduce with + from 0 over the columns, at row `p`, is the sum of the row's entries. -/
theorem hostSum_apply (x : FVec Ideal S100000x64 .f32) (p : Fin 100000) :
    Host.reduceAdd x (constant (F := Ideal) S_ .f32 0x00000000#32) reducesTo_S100000x64_S100000_d1 h_S_ (ix1 p)
      = ∑ k : Fin 64, x (ix2 p k) := by
  show Ideal.hostReduceAdd reducesTo_S100000x64_S100000_d1 x (Ideal.ofBits .f32 0x00000000#32) (ix1 p) = _
  rw [Ideal.hostReduceAdd_single _ reduces_cols, Ideal.ofBits_zero_f32, zero_add]
  exact Finset.sum_congr rfl fun k _ => congrArg x (lift_col reduces_cols p k)

/-- The logarithm of a row's sum, as the reference composes it from the array `x` of the summands: reduced with + from 0,
    written as a column, the logarithm taken, repeated along the row. -/
theorem refLogSum_apply (x : FVec Ideal S100000x64 .f32) (p : Fin 100000) (q : Fin 64) :
    broadcastInDim S100000x64 ![0, 1] bcast_S100000x1_S100000x64_0_1 (Host.log (broadcastInDim S100000x1 ![0] bcast_S100000_S100000x1_0 (Host.reduceAdd x (constant (F := Ideal) S_ .f32 0x00000000#32) reducesTo_S100000x64_S100000_d1 h_S_))) (ix2 p q)
      = Ideal.log (∑ k : Fin 64, x (ix2 p k)) := by
  rw [bcastCol_apply]
  unfold Host.log
  rw [Ideal.hostUnary_log_def, bcastUnit_apply, hostSum_apply]

/-- The host's exponential of an array, entry by entry. -/
theorem hostExp_apply (x : FVec Ideal S100000x64 .f32) (i : S100000x64.Idx) : Host.exp x i = Ideal.exp (x i) := by
  unfold Host.exp
  rw [Ideal.hostUnary_exp_def]

/-- The reference's composed log-softmax is the specification's. -/
theorem refLogSoftmax_eq (y : FVec Ideal S100000x64 .f32) : refLogSoftmax y = Cert.Spec.logSoftmax y := by
  funext i
  obtain ⟨p, q, rfl⟩ : ∃ p q, i = ix2 p q := ⟨i 0, i 1, eq_ix2 i⟩
  unfold refLogSoftmax
  rw [refShifted_eq, subf_apply, refLogSum_apply]
  unfold Cert.Spec.logSoftmax
  simp only [hostExp_apply]

end Cert.ReferenceIdeal.RefLogSoftmax

end
-- ==== Proof.BridgeC.lean ====
/-
  The second layer and the result. The kernel's program takes the product `h · W2` in its third call, gathers, scales and
  sums over the edges on the host, and adds the bias and takes the row-wise log-softmax in its fourth call; the reference
  does the same with the host's `dot_general`, a broadcast bias and its outlined log-softmax. With the first layer's
  results the same and the edge lists and normalisation the same, the two programs' results are the same array.
-/
import proofs.«164937_j88313117541056_1_alg».proof.Proof.Gen.KernelIdeal.Frame
import proofs.«164937_j88313117541056_1_alg».proof.Proof.RefChunks
import proofs.«164937_j88313117541056_1_alg».proof.Proof.BridgeB
import proofs.«164937_j88313117541056_1_alg».proof.Proof.Region2
import proofs.«164937_j88313117541056_1_alg».proof.Proof.Region3
import proofs.«164937_j88313117541056_1_alg».proof.Proof.RefLogSoftmax

set_option maxRecDepth 16384

noncomputable section

namespace Cert.Bridge

open Cert.KernelIdeal Cert.KernelIdeal.Gen Cert.ReferenceIdeal.Chunks
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-- The reference's buffer contents after its last stretch. -/
def VC : Valuation Cert.ReferenceIdeal.τ Cert.ReferenceIdeal.sig (Elt Ideal) := after (opsC' (F := Ideal)) (VB m' c)

/-- The kernel program's host stretch before its last call: each edge's source row of `h` (a negative index wrapped), times the edge's normalisation, summed into the edge's target row; 64 columns. -/
def aggr64K (h : (⟨S100000x64, .f32⟩ : BufTy).Contents (Elt Ideal)) (s d : (⟨S1700000, .i32⟩ : BufTy).Contents (Elt Ideal))
    (n : (⟨S1700000x1, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1 n))

/-- The same stretch as the reference spells it. -/
def aggr64R (h : (⟨Cert.ReferenceIdeal.S100000x64, .f32⟩ : BufTy).Contents (Elt Ideal)) (s d : (⟨Cert.ReferenceIdeal.S1700000, .i32⟩ : BufTy).Contents (Elt Ideal))
    (n : (⟨Cert.ReferenceIdeal.S1700000x1, .f32⟩ : BufTy).Contents (Elt Ideal)) : (⟨Cert.ReferenceIdeal.S100000x64, .f32⟩ : BufTy).Contents (Elt Ideal) :=
  Host.scatterAdd Cert.ReferenceIdeal.scatter_S100000x64_S1700000x1_S1700000x64_1_0_0_1
    (broadcastInDim Cert.ReferenceIdeal.S100000x64 ![] Cert.ReferenceIdeal.Gen.bcast_S_S100000x64 (constant (F := Ideal) Cert.ReferenceIdeal.S_ .f32 0x00000000#32))
    (broadcastInDim Cert.ReferenceIdeal.S1700000x1 ![0] Cert.ReferenceIdeal.Gen.bcast_S1700000_S1700000x1_0 d)
    (mulf
      (Host.gather Cert.ReferenceIdeal.gather_S100000x64_S1700000x1_S1700000x64_1_0_n_n_0_1_164 h
        (broadcastInDim Cert.ReferenceIdeal.S1700000x1 ![0] Cert.ReferenceIdeal.Gen.bcast_S1700000_S1700000x1_0
          (select (cmpi .slt s (broadcastInDim Cert.ReferenceIdeal.S1700000 ![] Cert.ReferenceIdeal.Gen.bcast_S_S1700000 (constantI Cert.ReferenceIdeal.S_ 32 0#32)))
            (addi s (broadcastInDim Cert.ReferenceIdeal.S1700000 ![] Cert.ReferenceIdeal.Gen.bcast_S_S1700000 (constantI Cert.ReferenceIdeal.S_ 32 100000#32))) s)))
      (broadcastInDim Cert.ReferenceIdeal.S1700000x64 ![0, 1] Cert.ReferenceIdeal.Gen.bcast_S1700000x1_S1700000x64_0_1 n))

/-- The two spellings are the same function. -/
theorem aggr64_eq (h : (⟨S100000x64, .f32⟩ : BufTy).Contents (Elt Ideal)) (s d : (⟨S1700000, .i32⟩ : BufTy).Contents (Elt Ideal))
    (n : (⟨S1700000x1, .f32⟩ : BufTy).Contents (Elt Ideal)) : aggr64K h s d n = aggr64R h s d n := rfl

/-- The reference's second layer as a function of the first layer's result, the weights, the bias, the edge lists and
    the normalisation column. -/
def layer2R (x : FVec Ideal Cert.ReferenceIdeal.S100000x128 .f32) (w : FVec Ideal Cert.ReferenceIdeal.S128x64 .f32)
    (b : FVec Ideal Cert.ReferenceIdeal.S64 .f32) (s d : (⟨Cert.ReferenceIdeal.S1700000, .i32⟩ : BufTy).Contents (Elt Ideal))
    (n : (⟨Cert.ReferenceIdeal.S1700000x1, .f32⟩ : BufTy).Contents (Elt Ideal)) : (⟨Cert.ReferenceIdeal.S100000x64, .f32⟩ : BufTy).Contents (Elt Ideal) :=
  Cert.ReferenceIdeal.RefLogSoftmax.refLogSoftmax
    (addf (aggr64R (Host.dotGeneral (F := Ideal) Cert.ReferenceIdeal.dot_S100000x128_S128x64_S100000x64_1_0_0_1_n_n none x w) s d n)
      (broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b)))

/-- It is the specification's bias-and-log-softmax of the aggregated product. -/
theorem layer2R_eq (x : FVec Ideal Cert.ReferenceIdeal.S100000x128 .f32) (w : FVec Ideal Cert.ReferenceIdeal.S128x64 .f32)
    (b : FVec Ideal Cert.ReferenceIdeal.S64 .f32) (s d : (⟨Cert.ReferenceIdeal.S1700000, .i32⟩ : BufTy).Contents (Elt Ideal))
    (n : (⟨Cert.ReferenceIdeal.S1700000x1, .f32⟩ : BufTy).Contents (Elt Ideal)) :
    layer2R x w b s d n = Cert.Spec.biasLogSoftmax (aggr64R (Cert.Spec.matProd x w) s d n) (Cert.Spec.row b) := by
  unfold layer2R
  rw [Cert.ReferenceIdeal.RefDot.dot64_eq, Cert.Spec.broadcastInDim_row, Cert.Spec.addf_oneRow,
    Cert.ReferenceIdeal.RefLogSoftmax.refLogSoftmax_eq]
  rfl

/-- From the first stretch to the last host stretch nothing writes `main_v3`. -/
theorem W5_keep_main_v3 : W5 m ρ c (Proc.devRef .tc main_v3) = W1 m ρ c (Proc.devRef .tc main_v3) := by
  rw [W5_of_ne m ρ c main_v3 (by decide), W4_of_ne m ρ c main_v3 (by decide), W3_keep_main_v3 m ρ c, W2_of_ne m ρ c main_v3 (by decide)]

/-- From the first stretch to the last host stretch nothing writes `main_v6`. -/
theorem W5_keep_main_v6 : W5 m ρ c (Proc.devRef .tc main_v6) = W1 m ρ c (Proc.devRef .tc main_v6) := by
  rw [W5_of_ne m ρ c main_v6 (by decide), W4_of_ne m ρ c main_v6 (by decide), W3_keep_main_v6 m ρ c, W2_of_ne m ρ c main_v6 (by decide)]

/-- From the first stretch to the last host stretch nothing writes `main_v27`. -/
theorem W5_keep_main_v27 : W5 m ρ c (Proc.devRef .tc main_v27) = W1 m ρ c (Proc.devRef .tc main_v27) := by
  rw [W5_of_ne m ρ c main_v27 (by decide), W4_of_ne m ρ c main_v27 (by decide), W3_keep_main_v27 m ρ c, W2_of_ne m ρ c main_v27 (by decide)]

/-- Nothing before the last call writes the second bias. -/
theorem W5_arg5 : W5 m ρ c (Proc.devRef .tc main_arg5) = m ((c.tc : Thread nD τ).loc main_arg5) := by
  rw [W5_of_ne m ρ c main_arg5 (by decide), W4_of_ne m ρ c main_arg5 (by decide), W3_keep_main_arg5 m ρ c,
    W2_of_ne m ρ c main_arg5 (by decide), W1_arg5 m ρ c]

/-- The third kernel call leaves the product of the first layer's result and the second weights in its result buffer. -/
theorem W5_v43 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) :
    W5 m ρ c (Proc.devRef .tc main_v43)
      = Cert.Spec.matProd (VB m' c (Proc.devRef .tc Cert.ReferenceIdeal.main_v44)) (m ((c.tc : Thread nD τ).loc main_arg4)) :=
  (W5_arr m ρ c 2).trans ((Cert.KernelIdeal.Region2.arr_eq (V4 m ρ) c).trans (by
    show Cert.Spec.matProd (W4 m ρ c (Proc.devRef .tc main_v42)) (W4 m ρ c (Proc.devRef .tc main_arg4)) = _
    rw [relu_eq m ρ m' c h0 h1 h2 h3, W4_of_ne m ρ c main_arg4 (by decide), W3_keep_main_arg4 m ρ c,
      W2_of_ne m ρ c main_arg4 (by decide), W1_arg4 m ρ c]))

set_option maxHeartbeats 2000000 in
/-- What the last host stretch leaves for the fourth call's first operand. -/
theorem W6_v55 : W6 m ρ c (Proc.devRef .tc main_v55)
    = aggr64K (W5 m ρ c (Proc.devRef .tc main_v43)) (W5 m ρ c (Proc.devRef .tc main_v3)) (W5 m ρ c (Proc.devRef .tc main_v6))
        (W5 m ρ c (Proc.devRef .tc main_v27)) := by
  show after (hostOps3 (F := Ideal)) (W5 m ρ c) (Proc.devRef .tc main_v55) = _
  simp only [hostOps3]
  after_results
  rfl

/-- What it leaves for the second operand: the bias as a one-row matrix. -/
theorem W6_v56 : W6 m ρ c (Proc.devRef .tc main_v56) = Cert.Spec.row (W5 m ρ c (Proc.devRef .tc main_arg5)) := by
  show after (hostOps3 (F := Ideal)) (W5 m ρ c) (Proc.devRef .tc main_v56) = _
  simp only [hostOps3]
  after_results
  exact Cert.Spec.shapeCast_row (W5 m ρ c (Proc.devRef .tc main_arg5)) shapeCasts_S64_S1x64

set_option maxHeartbeats 8000000 in
/-- What the reference's last stretch leaves in its result buffer. -/
theorem VC_v62 : VC m' c (Proc.devRef .tc Cert.ReferenceIdeal.main_v62)
    = layer2R (VB m' c (Proc.devRef .tc Cert.ReferenceIdeal.main_v44)) (VB m' c (Proc.devRef .tc Cert.ReferenceIdeal.main_arg4))
        (VB m' c (Proc.devRef .tc Cert.ReferenceIdeal.main_arg5)) (VB m' c (Proc.devRef .tc Cert.ReferenceIdeal.main_v3)) (VB m' c (Proc.devRef .tc Cert.ReferenceIdeal.main_v6))
        (broadcastInDim Cert.ReferenceIdeal.S1700000x1 ![0] Cert.ReferenceIdeal.Gen.bcast_S1700000_S1700000x1_0 (VB m' c (Proc.devRef .tc Cert.ReferenceIdeal.main_v26))) := by
  show after (opsC' (F := Ideal)) (VB m' c) (Proc.devRef .tc Cert.ReferenceIdeal.main_v62) = _
  simp only [opsC']
  after_results
  rfl

/-- The result: the kernel's fourth call leaves what the reference's log-softmax leaves. -/
theorem out_eq (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) (h4 : m' ((c.tc : Thread Cert.ReferenceIdeal.nD Cert.ReferenceIdeal.τ).loc Cert.ReferenceIdeal.main_arg4) = m ((c.tc : Thread nD τ).loc main_arg4)) (h5 : m' ((c.tc : Thread Cert.ReferenceIdeal.nD Cert.ReferenceIdeal.τ).loc Cert.ReferenceIdeal.main_arg5) = m ((c.tc : Thread nD τ).loc main_arg5)) :
    W7 m ρ c (Proc.devRef .tc main_v57) = VC m' c (Proc.devRef .tc Cert.ReferenceIdeal.main_v62) := by
  refine (W7_arr m ρ c 2).trans ((Cert.KernelIdeal.Region3.arr_eq (V6 m ρ) c).trans ?_)
  show Cert.Spec.biasLogSoftmax (W6 m ρ c (Proc.devRef .tc main_v55)) (W6 m ρ c (Proc.devRef .tc main_v56)) = _
  rw [W6_v55 m ρ c, W6_v56 m ρ c, W5_v43 m ρ m' c h0 h1 h2 h3, W5_keep_main_v3 m ρ c, W5_keep_main_v6 m ρ c,
    W5_keep_main_v27 m ρ c, W5_arg5 m ρ c, src_eq m ρ m' c h1, dst_eq m ρ m' c h1, nrm_eq m ρ m' c h1]
  rw [VC_v62 m' c, layer2R_eq, VB_keep_main_v3 m' c, VB_keep_main_v6 m' c, VB_keep_main_v26 m' c, VB_keep_main_arg4 m' c,
    VB_keep_main_arg5 m' c, VA_arg4 m' c, VA_arg5 m' c, h4, h5, aggr64_eq]

end Cert.Bridge

end
-- ==== Proof.lean ====
/-
  A two-layer graph convolution on 100000 nodes and 1700000 message edges (the 1600000 given edges and one self loop
  per node): each layer multiplies the node features by a weight matrix, gathers every edge's source row, scales it by the
  edge's normalisation (the product of the two endpoints' inverse square-root degrees) and sums the rows into the edge's
  target node, then adds a bias; the first layer ends with the maximum with zero, the second with the row-wise
  log-softmax.

  The kernel's program does the two matrix products, the bias with the maximum, and the bias with the log-softmax in
  four row-tiled kernel calls (twenty blocks of 5000 rows each, the weights or the one-row bias whole at every block) and
  leaves the edge lists, the normalisation, the gathers and the scatter-adds to host operations; the reference does
  everything with host operations. Over the extended reals:
  * each matrix-product call leaves `Spec.matProd` of its operands (the conversions to the narrower format are the
    identity, the accumulator starts at zero, and the blocks tile the rows), which is what the host's `dot_general`
    computes entry by entry;
  * the second call leaves `Spec.biasRelu`, which is the reference's broadcast bias added and its maximum with the zero
    array;
  * the fourth call leaves `Spec.biasLogSoftmax`: its row maximum from -∞ and its row sum from 0 are the folds the host's
    two reduces compute, the host's further maximum with -∞ changes nothing, and the exponential and logarithm are the
    same functions on both sides;
  * the host operations in between are the same operations in both programs, applied to equal arrays, so they are never
    opened: the source and target lists and the normalisation are the same functions of the edge list, and each
    gather-scale-scatter stretch is carried as it stands.
  So the two programs end with the same array. No step needs the inputs to be finite. The ideal pass rewrote nothing in
  the kernel, so there is nothing to preserve. The frames of the two kernel programs are the generated ones; the
  reference's frame is its run with the result dropped.
-/
import proofs.«164937_j88313117541056_1_alg».proof.Defs
import proofs.«164937_j88313117541056_1_alg».proof.Proof.Gen.Kernel
import proofs.«164937_j88313117541056_1_alg».proof.Proof.Gen.Kernel.Frame
import proofs.«164937_j88313117541056_1_alg».proof.Proof.Gen.KernelIdeal
import proofs.«164937_j88313117541056_1_alg».proof.Proof.Gen.KernelIdeal.Frame
import proofs.«164937_j88313117541056_1_alg».proof.Proof.Gen.ReferenceIdeal
import proofs.«164937_j88313117541056_1_alg».proof.Proof.Gen.Pre_finite_inputs
import proofs.«164937_j88313117541056_1_alg».proof.Proof.RunOut
import proofs.«164937_j88313117541056_1_alg».proof.Proof.RefRun
import proofs.«164937_j88313117541056_1_alg».proof.Proof.RefChunks
import proofs.«164937_j88313117541056_1_alg».proof.Proof.RefPlain
import proofs.«164937_j88313117541056_1_alg».proof.Proof.BridgeC
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs, faults nowhere and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Run from memories that agree on the six arguments, the two programs end with the same result array: the kernel's
    at the contents its last call leaves, the reference's at the contents after its three stretches, which are equal
    (`Bridge.out_eq`). -/
theorem algebraic : Cert.algebraic_KernelIdeal_ReferenceIdeal := by
  intro m ρ m' ρ' _ hagree
  refine ⟨fun c => Cert.KernelIdeal.Gen.W7 m ρ c (Proc.devRef .tc Cert.KernelIdeal.main_v57),
    Cert.KernelIdeal.RunOut.run_out m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Chunks.after_ops']
  exact (Cert.Bridge.out_eq m ρ m' c (hagree c).1 (hagree c).2.1 (hagree c).2.2.1 (hagree c).2.2.2.1 (hagree c).2.2.2.2.1
    (hagree c).2.2.2.2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
